-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x26x128 : Shape := ⟨3, ![32768, 26, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x26x128 : S_.BroadcastsInDim S32768x26x128 (![] : Fin 0 → Fin S32768x26x128.rank)
  reducesTo_S32768x26x128_S_d0_1_2 : S32768x26x128.ReducesTo [0, 1, 2] S_

variable [Facts]

def fn {F : FTy → Type} [FloatOps F] (main_arg0 : FVec F S32768x128 .f32) (main_arg1 : FVec F S32768x26x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x26x128 .f32 := Host.absf main_arg1
  let main_cst_0 : FVec F S_ .f32 := constant S_ .f32 0x7F800000#32
  let main_v5 : FVec F S32768x26x128 .f32 := broadcastInDim S32768x26x128 ![] bcast_S_S32768x26x128 main_cst_0
  let main_v6 : IVec S32768x26x128 1 := cmpf .olt main_v4 main_v5
  let main_c_1 : IVec S_ 1 := constantI S_ 1 1#1
  let main_v7 : IVec S_ 1 := (fun x v => Host.reduce IntOp.andi x v reducesTo_S32768x26x128_S_d0_1_2 h_S_) main_v6 main_c_1
  let main_v8 : IVec S_ 1 := andi main_v3 main_v7
  main_v8
-- ==== Kernel.lean ====
abbrev S32768x128 : Shape := ⟨2, ![32768, 128]⟩
abbrev S32768x26x128 : Shape := ⟨3, ![32768, 26, 128]⟩
abbrev S32768x378 : Shape := ⟨2, ![32768, 378]⟩
abbrev S512x128 : Shape := ⟨2, ![512, 128]⟩
abbrev S512x26x128 : Shape := ⟨3, ![512, 26, 128]⟩
abbrev S512x378 : Shape := ⟨2, ![512, 378]⟩
abbrev S512x1x128 : Shape := ⟨3, ![512, 1, 128]⟩
abbrev S512x27x128 : Shape := ⟨3, ![512, 27, 128]⟩
abbrev S512x27x27 : Shape := ⟨3, ![512, 27, 27]⟩
abbrev S512x1x27 : Shape := ⟨3, ![512, 1, 27]⟩
abbrev S512x27 : Shape := ⟨2, ![512, 27]⟩
abbrev S512x1x26 : Shape := ⟨3, ![512, 1, 26]⟩
abbrev S512x26 : Shape := ⟨2, ![512, 26]⟩
abbrev S512x1x25 : Shape := ⟨3, ![512, 1, 25]⟩
abbrev S512x25 : Shape := ⟨2, ![512, 25]⟩
abbrev S512x1x24 : Shape := ⟨3, ![512, 1, 24]⟩
abbrev S512x24 : Shape := ⟨2, ![512, 24]⟩
abbrev S512x1x23 : Shape := ⟨3, ![512, 1, 23]⟩
abbrev S512x23 : Shape := ⟨2, ![512, 23]⟩
abbrev S512x1x22 : Shape := ⟨3, ![512, 1, 22]⟩
abbrev S512x22 : Shape := ⟨2, ![512, 22]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S512x1x19 : Shape := ⟨3, ![512, 1, 19]⟩
abbrev S512x19 : Shape := ⟨2, ![512, 19]⟩
abbrev S512x1x18 : Shape := ⟨3, ![512, 1, 18]⟩
abbrev S512x18 : Shape := ⟨2, ![512, 18]⟩
abbrev S512x1x17 : Shape := ⟨3, ![512, 1, 17]⟩
abbrev S512x17 : Shape := ⟨2, ![512, 17]⟩
abbrev S512x1x16 : Shape := ⟨3, ![512, 1, 16]⟩
abbrev S512x16 : Shape := ⟨2, ![512, 16]⟩
abbrev S512x1x15 : Shape := ⟨3, ![512, 1, 15]⟩
abbrev S512x15 : Shape := ⟨2, ![512, 15]⟩
abbrev S512x1x14 : Shape := ⟨3, ![512, 1, 14]⟩
abbrev S512x14 : Shape := ⟨2, ![512, 14]⟩
abbrev S512x1x13 : Shape := ⟨3, ![512, 1, 13]⟩
abbrev S512x13 : Shape := ⟨2, ![512, 13]⟩
abbrev S512x1x12 : Shape := ⟨3, ![512, 1, 12]⟩
abbrev S512x12 : Shape := ⟨2, ![512, 12]⟩
abbrev S512x1x11 : Shape := ⟨3, ![512, 1, 11]⟩
abbrev S512x11 : Shape := ⟨2, ![512, 11]⟩
abbrev S512x1x10 : Shape := ⟨3, ![512, 1, 10]⟩
abbrev S512x10 : Shape := ⟨2, ![512, 10]⟩
abbrev S512x1x9 : Shape := ⟨3, ![512, 1, 9]⟩
abbrev S512x9 : Shape := ⟨2, ![512, 9]⟩
abbrev S512x1x8 : Shape := ⟨3, ![512, 1, 8]⟩
abbrev S512x8 : Shape := ⟨2, ![512, 8]⟩
abbrev S512x1x7 : Shape := ⟨3, ![512, 1, 7]⟩
abbrev S512x7 : Shape := ⟨2, ![512, 7]⟩
abbrev S512x1x6 : Shape := ⟨3, ![512, 1, 6]⟩
abbrev S512x6 : Shape := ⟨2, ![512, 6]⟩
abbrev S512x1x5 : Shape := ⟨3, ![512, 1, 5]⟩
abbrev S512x5 : Shape := ⟨2, ![512, 5]⟩
abbrev S512x1x4 : Shape := ⟨3, ![512, 1, 4]⟩
abbrev S512x4 : Shape := ⟨2, ![512, 4]⟩
abbrev S512x1x3 : Shape := ⟨3, ![512, 1, 3]⟩
abbrev S512x3 : Shape := ⟨2, ![512, 3]⟩
abbrev S512x1x2 : Shape := ⟨3, ![512, 1, 2]⟩
abbrev S512x2 : Shape := ⟨2, ![512, 2]⟩
abbrev S512x1x1 : Shape := ⟨3, ![512, 1, 1]⟩
abbrev S512x1 : Shape := ⟨2, ![512, 1]⟩
abbrev S32768x506 : Shape := ⟨2, ![32768, 506]⟩

abbrev nBuf : Space → Nat
  | .hbm => 4
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S32768x26x128, .f32⟩
  | .hbm, ⟨2, _⟩ => ⟨S32768x378, .f32⟩
  | .hbm, ⟨3, _⟩ => ⟨S32768x506, .f32⟩
  | .local _ .vmem, ⟨0, _⟩ => ⟨S512x128, .f32⟩
  | .local _ .vmem, ⟨1, _⟩ => ⟨S512x128, .f32⟩
  | .local _ .vmem, ⟨2, _⟩ => ⟨S512x26x128, .f32⟩
  | .local _ .vmem, ⟨3, _⟩ => ⟨S512x26x128, .f32⟩
  | .local _ .vmem, ⟨4, _⟩ => ⟨S512x378, .f32⟩
  | .local _ .vmem, ⟨5, _⟩ => ⟨S512x378, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x378 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S512x26x128_S512x26x128_0_0_0 : ∀ a, (![0, 0, 0] : Fin 3 → Nat) a + S512x26x128.size a ≤ S512x26x128.size a
  h_S512x26x128 : 0 < S512x26x128.numel
  shapeCasts_S512x128_S512x1x128 : S512x128.ShapeCasts S512x1x128
  concatenates_S512x1x128_S512x26x128_S512x27x128_d1 : Shape.Concatenates [S512x1x128, S512x26x128] S512x27x128 1
  bitsLt_bf16_f32 : FTy.bits .bf16 < FTy.bits .f32
  slices_S512x27x27_o0_0_0_S512x1x27 : S512x27x27.Slices ![0, 0, 0] S512x1x27
  shapeCasts_S512x1x27_S512x27 : S512x1x27.ShapeCasts S512x27
  slices_S512x27x27_o0_1_1_S512x1x26 : S512x27x27.Slices ![0, 1, 1] S512x1x26
  shapeCasts_S512x1x26_S512x26 : S512x1x26.ShapeCasts S512x26
  slices_S512x27x27_o0_2_2_S512x1x25 : S512x27x27.Slices ![0, 2, 2] S512x1x25
  shapeCasts_S512x1x25_S512x25 : S512x1x25.ShapeCasts S512x25
  slices_S512x27x27_o0_3_3_S512x1x24 : S512x27x27.Slices ![0, 3, 3] S512x1x24
  shapeCasts_S512x1x24_S512x24 : S512x1x24.ShapeCasts S512x24
  slices_S512x27x27_o0_4_4_S512x1x23 : S512x27x27.Slices ![0, 4, 4] S512x1x23
  shapeCasts_S512x1x23_S512x23 : S512x1x23.ShapeCasts S512x23
  slices_S512x27x27_o0_5_5_S512x1x22 : S512x27x27.Slices ![0, 5, 5] S512x1x22
  shapeCasts_S512x1x22_S512x22 : S512x1x22.ShapeCasts S512x22
  slices_S512x27x27_o0_6_6_S512x1x21 : S512x27x27.Slices ![0, 6, 6] S512x1x21
  shapeCasts_S512x1x21_S512x21 : S512x1x21.ShapeCasts S512x21
  slices_S512x27x27_o0_7_7_S512x1x20 : S512x27x27.Slices ![0, 7, 7] S512x1x20
  shapeCasts_S512x1x20_S512x20 : S512x1x20.ShapeCasts S512x20
  slices_S512x27x27_o0_8_8_S512x1x19 : S512x27x27.Slices ![0, 8, 8] S512x1x19
  shapeCasts_S512x1x19_S512x19 : S512x1x19.ShapeCasts S512x19
  slices_S512x27x27_o0_9_9_S512x1x18 : S512x27x27.Slices ![0, 9, 9] S512x1x18
  shapeCasts_S512x1x18_S512x18 : S512x1x18.ShapeCasts S512x18
  slices_S512x27x27_o0_10_10_S512x1x17 : S512x27x27.Slices ![0, 10, 10] S512x1x17
  shapeCasts_S512x1x17_S512x17 : S512x1x17.ShapeCasts S512x17
  slices_S512x27x27_o0_11_11_S512x1x16 : S512x27x27.Slices ![0, 11, 11] S512x1x16
  shapeCasts_S512x1x16_S512x16 : S512x1x16.ShapeCasts S512x16
  slices_S512x27x27_o0_12_12_S512x1x15 : S512x27x27.Slices ![0, 12, 12] S512x1x15
  shapeCasts_S512x1x15_S512x15 : S512x1x15.ShapeCasts S512x15
  slices_S512x27x27_o0_13_13_S512x1x14 : S512x27x27.Slices ![0, 13, 13] S512x1x14
  shapeCasts_S512x1x14_S512x14 : S512x1x14.ShapeCasts S512x14
  slices_S512x27x27_o0_14_14_S512x1x13 : S512x27x27.Slices ![0, 14, 14] S512x1x13
  shapeCasts_S512x1x13_S512x13 : S512x1x13.ShapeCasts S512x13
  slices_S512x27x27_o0_15_15_S512x1x12 : S512x27x27.Slices ![0, 15, 15] S512x1x12
  shapeCasts_S512x1x12_S512x12 : S512x1x12.ShapeCasts S512x12
  slices_S512x27x27_o0_16_16_S512x1x11 : S512x27x27.Slices ![0, 16, 16] S512x1x11
  shapeCasts_S512x1x11_S512x11 : S512x1x11.ShapeCasts S512x11
  slices_S512x27x27_o0_17_17_S512x1x10 : S512x27x27.Slices ![0, 17, 17] S512x1x10
  shapeCasts_S512x1x10_S512x10 : S512x1x10.ShapeCasts S512x10
  slices_S512x27x27_o0_18_18_S512x1x9 : S512x27x27.Slices ![0, 18, 18] S512x1x9
  shapeCasts_S512x1x9_S512x9 : S512x1x9.ShapeCasts S512x9
  slices_S512x27x27_o0_19_19_S512x1x8 : S512x27x27.Slices ![0, 19, 19] S512x1x8
  shapeCasts_S512x1x8_S512x8 : S512x1x8.ShapeCasts S512x8
  slices_S512x27x27_o0_20_20_S512x1x7 : S512x27x27.Slices ![0, 20, 20] S512x1x7
  shapeCasts_S512x1x7_S512x7 : S512x1x7.ShapeCasts S512x7
  slices_S512x27x27_o0_21_21_S512x1x6 : S512x27x27.Slices ![0, 21, 21] S512x1x6
  shapeCasts_S512x1x6_S512x6 : S512x1x6.ShapeCasts S512x6
  slices_S512x27x27_o0_22_22_S512x1x5 : S512x27x27.Slices ![0, 22, 22] S512x1x5
  shapeCasts_S512x1x5_S512x5 : S512x1x5.ShapeCasts S512x5
  slices_S512x27x27_o0_23_23_S512x1x4 : S512x27x27.Slices ![0, 23, 23] S512x1x4
  shapeCasts_S512x1x4_S512x4 : S512x1x4.ShapeCasts S512x4
  slices_S512x27x27_o0_24_24_S512x1x3 : S512x27x27.Slices ![0, 24, 24] S512x1x3
  shapeCasts_S512x1x3_S512x3 : S512x1x3.ShapeCasts S512x3
  slices_S512x27x27_o0_25_25_S512x1x2 : S512x27x27.Slices ![0, 25, 25] S512x1x2
  shapeCasts_S512x1x2_S512x2 : S512x1x2.ShapeCasts S512x2
  slices_S512x27x27_o0_26_26_S512x1x1 : S512x27x27.Slices ![0, 26, 26] S512x1x1
  shapeCasts_S512x1x1_S512x1 : S512x1x1.ShapeCasts S512x1
  concatenates_S512x27_S512x26_S512x25_S512x24_S512x23_S512x22_S512x21_S512x20_S512x19_S512x18_S512x17_S512x16_S512x15_S512x14_S512x13_S512x12_S512x11_S512x10_S512x9_S512x8_S512x7_S512x6_S512x5_S512x4_S512x3_S512x2_S512x1_S512x378_d1 : Shape.Concatenates [S512x27, S512x26, S512x25, S512x24, S512x23, S512x22, S512x21, S512x20, S512x19, S512x18, S512x17, S512x16, S512x15, S512x14, S512x13, S512x12, S512x11, S512x10, S512x9, S512x8, S512x7, S512x6, S512x5, S512x4, S512x3, S512x2, S512x1] S512x378 1
  inb_S512x378_S512x378_0_0 : ∀ a, (![0, 0] : Fin 2 → Nat) a + S512x378.size a ≤ S512x378.size a
  h_S512x378 : 0 < S512x378.numel
  concatenates_S32768x128_S32768x378_S32768x506_d1 : Shape.Concatenates [S32768x128, S32768x378] S32768x506 1
  dot_S512x27x128_S512x27x128_S512x27x27_2_2_1_1_0_0_wf : DotDims.WF S512x27x128 S512x27x128 S512x27x27 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x128.size a ≤ S32768x26x128.size a
  hwx0_1 : ∀ i : grid0.Coords, EltTy.bits .f32 = 32 ∨ (Rect.block (s := S32768x26x128) S512x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x378.size a ≤ S32768x378.size a
  hwx0_2 : ∀ i : grid0.Coords, EltTy.bits .f32 = 32 ∨ (Rect.block (s := S32768x378) S512x378.size (cc0_transform_2 i) (hinb0_2 i)).WholeWords (EltTy.packing .f32)

variable [Facts₀]

def dot_S512x27x128_S512x27x128_S512x27x27_2_2_1_1_0_0 : DotDims S512x27x128 S512x27x128 S512x27x27 where
  lhsContracting := [2]
  rhsContracting := [2]
  lhsNonContracting := [1]
  rhsNonContracting := [1]
  lhsBatch := [0]
  rhsBatch := [0]
  wf := dot_S512x27x128_S512x27x128_S512x27x27_2_2_1_1_0_0_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x378.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x26x128 : Shape := ⟨3, ![32768, 26, 128]⟩
abbrev S378 : Shape := ⟨1, ![378]⟩
abbrev S32768x1x128 : Shape := ⟨3, ![32768, 1, 128]⟩
abbrev S32768x27x128 : Shape := ⟨3, ![32768, 27, 128]⟩
abbrev S32768x27x27 : Shape := ⟨3, ![32768, 27, 27]⟩
abbrev S_ : Shape := ⟨0, ![]⟩
abbrev S378x1 : Shape := ⟨2, ![378, 1]⟩
abbrev S378x2 : Shape := ⟨2, ![378, 2]⟩
abbrev S32768x378 : Shape := ⟨2, ![32768, 378]⟩
abbrev S32768x506 : Shape := ⟨2, ![32768, 506]⟩

abbrev nBuf : Space → Nat
  | .hbm => 22
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x26x128, .f32⟩
  | .hbm, ⟨2, _⟩ => ⟨S378, .i32⟩
  | .hbm, ⟨3, _⟩ => ⟨S378, .i1⟩
  | .hbm, ⟨4, _⟩ => ⟨S378, .i32⟩
  | .hbm, ⟨5, _⟩ => ⟨S378, .i1⟩
  | .hbm, ⟨6, _⟩ => ⟨S32768x1x128, .f32⟩
  | .hbm, ⟨7, _⟩ => ⟨S32768x27x128, .f32⟩
  | .hbm, ⟨8, _⟩ => ⟨S32768x27x27, .f32⟩
  | .hbm, ⟨9, _⟩ => ⟨S_, .i32⟩
  | .hbm, ⟨10, _⟩ => ⟨S378, .i32⟩
  | .hbm, ⟨11, _⟩ => ⟨S378, .i32⟩
  | .hbm, ⟨12, _⟩ => ⟨S378, .i32⟩
  | .hbm, ⟨13, _⟩ => ⟨S_, .i32⟩
  | .hbm, ⟨14, _⟩ => ⟨S378, .i32⟩
  | .hbm, ⟨15, _⟩ => ⟨S378, .i32⟩
  | .hbm, ⟨16, _⟩ => ⟨S378, .i32⟩
  | .hbm, ⟨17, _⟩ => ⟨S378x1, .i32⟩
  | .hbm, ⟨18, _⟩ => ⟨S378x1, .i32⟩
  | .hbm, ⟨19, _⟩ => ⟨S378x2, .i32⟩
  | .hbm, ⟨20, _⟩ => ⟨S32768x378, .f32⟩
  | .hbm, ⟨21, _⟩ => ⟨S32768x506, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S32768x128_S32768x1x128_0_2 : S32768x128.BroadcastsInDim S32768x1x128 (![0, 2] : Fin 2 → Fin S32768x1x128.rank)
  concatenates_S32768x1x128_S32768x26x128_S32768x27x128_d1 : Shape.Concatenates [S32768x1x128, S32768x26x128] S32768x27x128 1
  bcast_S_S378 : S_.BroadcastsInDim S378 (![] : Fin 0 → Fin S378.rank)
  bcast_S378_S378x1_0 : S378.BroadcastsInDim S378x1 (![0] : Fin 1 → Fin S378x1.rank)
  concatenates_S378x1_S378x1_S378x2_d1 : Shape.Concatenates [S378x1, S378x1] S378x2 1
  concatenates_S32768x128_S32768x378_S32768x506_d1 : Shape.Concatenates [S32768x128, S32768x378] S32768x506 1
  dot_S32768x27x128_S32768x27x128_S32768x27x27_2_2_1_1_0_0_wf : DotDims.WF S32768x27x128 S32768x27x128 S32768x27x27 [2] [2] [1] [1] [0] [0]
  gather_S32768x27x27_S378x2_S32768x378_0_12_n_n_12_1_3276811_wf : GatherDims.WF S32768x27x27 S378x2 S32768x378 [0] [1, 2] [] [1, 2] [] 1 ![32768, 1, 1]

variable [Facts₀]

def dot_S32768x27x128_S32768x27x128_S32768x27x27_2_2_1_1_0_0 : DotDims S32768x27x128 S32768x27x128 S32768x27x27 where
  lhsContracting := [2]
  rhsContracting := [2]
  lhsNonContracting := [1]
  rhsNonContracting := [1]
  lhsBatch := [0]
  rhsBatch := [0]
  wf := dot_S32768x27x128_S32768x27x128_S32768x27x27_2_2_1_1_0_0_wf
def gather_S32768x27x27_S378x2_S32768x378_0_12_n_n_12_1_3276811 : GatherDims S32768x27x27 S378x2 S32768x378 where
  offsetDims := [0]
  collapsedSliceDims := [1, 2]
  operandBatchingDims := []
  startIndicesBatchingDims := []
  startIndexMap := [1, 2]
  indexVectorDim := 1
  sliceSizes := ![32768, 1, 1]
  wf := gather_S32768x27x27_S378x2_S32768x378_0_12_n_n_12_1_3276811_wf

class Facts : Prop extends Facts₀ where

variable [Facts]
-- ==== Proof.Spec.lean ====
/-
  The specification of the dot-interaction layer, as one function of the two argument arrays, index by index.

  A sample b has 27 feature vectors of length 128: its dense vector (feature 0) and its 26 sparse vectors (features
  1 … 26). Their Gram matrix is g(n, m) = Σ_k c(n, k) · c(m, k), a 27 × 27 symmetric matrix per sample, and the layer
  keeps its upper triangle, diagonal included, laid out row by row: row r of the triangle holds the 27 − r entries
  g(r, r), g(r, r + 1), …, g(r, 26), so it starts at column off r = 27 + 26 + … + (27 − (r − 1)) of the 378 = 27 · 28 / 2.
  Column q of the result is therefore g(rowOf q, colOf q) with rowOf q the triangle row whose span holds q and
  colOf q = rowOf q + (q − off (rowOf q)).

  Everything is stated for ANY number B of samples, so that one text serves a block of 512 samples and the whole
  array of 32768. The sums are sums of extended reals; no law beyond reading both programs at an index is used, so
  nothing here needs the entries to be finite.
-/
import Idealize.ShloMosaic.PureOps.Ideal
import Idealize.ShloMosaic.Lib.ValueIdx

noncomputable section

open scoped BigOperators

namespace Cert.DotInteract

open Idealize.ShloMosaic Idealize.ShloMosaic.ValueIdx

/-! ## The triangle's layout: which entry of the Gram matrix column q holds -/

/-- The column at which row `r` of the upper triangle starts: the rows before it hold 27, 26, …, 27 − (r − 1) entries. -/
def off (r : Nat) : Nat := 27 * r - r * (r - 1) / 2

/-- The triangle row whose span holds column `q`: the number of rows 1 … 26 that start at or before `q`. -/
def rowOf (q : Nat) : Nat := (List.range 26).countP fun r => off (r + 1) ≤ q

/-- The Gram-matrix column of column `q`: the row's own number (the diagonal) plus `q`'s place in the row. -/
def colOf (q : Nat) : Nat := rowOf q + (q - off (rowOf q))

theorem rowOf_lt : ∀ q : Fin 378, rowOf q.val < 27 := by decide +kernel
theorem colOf_lt : ∀ q : Fin 378, colOf q.val < 27 := by decide +kernel

/-- Entry `jj` of triangle row `r` sits at column `off r + jj`, and that column's row and Gram column are `r` and `r + jj`. -/
theorem row_col_at : ∀ r : Fin 27, ∀ jj : Fin 27, r.val + jj.val < 27 →
    off r.val + jj.val < 378 ∧ rowOf (off r.val + jj.val) = r.val ∧ colOf (off r.val + jj.val) = r.val + jj.val := by
  decide +kernel

/-- Every column lies in its row's span: it is `off (rowOf q)` plus a place below the row's length. -/
theorem col_in_row : ∀ q : Fin 378, off (rowOf q.val) ≤ q.val ∧ q.val - off (rowOf q.val) < 27 - rowOf q.val := by
  decide +kernel

/-- The row and the Gram column of a column, as coordinates. -/
def rowF (q : Fin 378) : Fin 27 := ⟨rowOf q.val, rowOf_lt q⟩
def colF (q : Fin 378) : Fin 27 := ⟨colOf q.val, colOf_lt q⟩

/-! ## The values -/

variable {B : Nat}

/-- Entry `k` of feature vector `n` of sample `b`: the dense vector for `n = 0`, sparse vector `n − 1` otherwise. -/
def comb (d : (⟨2, ![B, 128]⟩ : Shape).Idx → EReal) (s : (⟨3, ![B, 26, 128]⟩ : Shape).Idx → EReal)
    (b : Fin B) (n : Fin 27) (k : Fin 128) : EReal :=
  if h : n.val = 0 then d (ix2 b k) else s (ix3 b ⟨n.val - 1, by have := n.isLt; omega⟩ k)

/-- The Gram matrix of sample `b`'s 27 feature vectors. -/
def gram (d : (⟨2, ![B, 128]⟩ : Shape).Idx → EReal) (s : (⟨3, ![B, 26, 128]⟩ : Shape).Idx → EReal)
    (b : Fin B) (n m : Fin 27) : EReal :=
  ∑ k : Fin 128, comb d s b n k * comb d s b m k

/-- The layer's interaction output: per sample, the upper triangle of its Gram matrix, row by row. -/
def tri (d : (⟨2, ![B, 128]⟩ : Shape).Idx → EReal) (s : (⟨3, ![B, 26, 128]⟩ : Shape).Idx → EReal) :
    (⟨2, ![B, 378]⟩ : Shape).Idx → EReal :=
  fun j => gram d s ⟨(j 0).val, idx2_lt0 j⟩ (rowF ⟨(j 1).val, idx2_lt1 j⟩) (colF ⟨(j 1).val, idx2_lt1 j⟩)

theorem tri_apply (d : (⟨2, ![B, 128]⟩ : Shape).Idx → EReal) (s : (⟨3, ![B, 26, 128]⟩ : Shape).Idx → EReal)
    (b : Fin B) (q : Fin 378) : tri d s (ix2 b q) = gram d s b (rowF q) (colF q) := rfl

end Cert.DotInteract

end
-- ==== Proof.LibRowsByRows.lean ====
/-
  A BATCHED PRODUCT OF ROWS BY ROWS, read at an index.

  For two stacks A : [B, N, K] and C : [B, M, K] the product that keeps the leading axis as a batch axis and
  contracts the LAST axis of both — `einsum "bnk,bmk->bnm"`, sample by sample the matrix A_b · C_bᵀ — has at
  (b, n, m) the value Σ_k A(b, n, k) · C(b, m, k). This is stated once for the dimension numbers
  contracting [2] × [2], free [1] × [1], batch [0] × [0], and then for the two operations that carry them at the ideal
  values: the vector unit's matrix product into a zero accumulator, and the host's general dot product. Both are the same
  plain sum of extended reals (no rounding, no order), so a kernel's product of a block and a reference's product of
  the whole array agree entry by entry.
-/
import Idealize.ShloMosaic.PureOps.Ideal
import Idealize.ShloMosaic.PureOps.Ideal.Laws
import Idealize.ShloMosaic.Lib.ValueIdx

noncomputable section

open scoped BigOperators

namespace Cert.Lib.RowsByRows

open Idealize.ShloMosaic Idealize.ShloMosaic.ValueIdx

variable {B N M K : Nat}

/-- The dimension numbers of the batched rows-by-rows product over [B, N, K] and [B, M, K]; `w` is their
    well-formedness, which a program states of its literal shapes. -/
abbrev dims (w : DotDims.WF ⟨3, ![B, N, K]⟩ ⟨3, ![B, M, K]⟩ ⟨3, ![B, N, M]⟩ [2] [2] [1] [1] [0] [0]) :
    DotDims ⟨3, ![B, N, K]⟩ ⟨3, ![B, M, K]⟩ ⟨3, ![B, N, M]⟩ := ⟨[2], [2], [1], [1], [0], [0], w⟩

variable (w : DotDims.WF ⟨3, ![B, N, K]⟩ ⟨3, ![B, M, K]⟩ ⟨3, ![B, N, M]⟩ [2] [2] [1] [1] [0] [0])

/-- At output entry (b, n, m) and contracted coordinate c the left operand is read at (b, n, c). -/
theorem lhsIdx_eq (b : Fin B) (n : Fin N) (m : Fin M) (c : Fin K) :
    (dims w).lhsIdx (ix3 b n m) ((contrEquiv1 (dims w) K rfl rfl).symm c) = ix3 b n c := by
  have c3 := contrEquiv1_symm_val (dims w) K rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- And the right operand at (b, m, c). -/
theorem rhsIdx_eq (b : Fin B) (n : Fin N) (m : Fin M) (c : Fin K) :
    (dims w).rhsIdx (ix3 b n m) ((contrEquiv1 (dims w) K rfl rfl).symm c) = ix3 b m c := by
  have c3 := contrEquiv1_symm_val (dims w) K rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The contraction's sum at (b, n, m), re-indexed by the contracted coordinate. -/
theorem contraction_sum (A : (⟨3, ![B, N, K]⟩ : Shape).Idx → EReal) (C : (⟨3, ![B, M, K]⟩ : Shape).Idx → EReal)
    (b : Fin B) (n : Fin N) (m : Fin M) :
    ∑ k : (dims w).contr.Idx, A ((dims w).lhsIdx (ix3 b n m) k) * C ((dims w).rhsIdx (ix3 b n m) k)
      = ∑ c : Fin K, A (ix3 b n c) * C (ix3 b m c) := by
  rw [← Equiv.sum_comp (contrEquiv1 (dims w) K rfl rfl).symm]
  refine Finset.sum_congr rfl fun c _ => ?_
  rw [lhsIdx_eq, rhsIdx_eq]

/-- The host's general dot product with these dimension numbers, at the ideal values, read at (b, n, m). -/
theorem dotGeneral_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    Host.dotGeneral (dims w) prec A C (ix3 b n m) = ∑ c : Fin K, A (ix3 b n c) * C (ix3 b m c) := by
  show FloatOps.dotGeneral _ prec _ A C (ix3 b n m) = _
  rw [Ideal.dotGeneral_apply]
  exact contraction_sum w A C b n m

/-- The vector unit's matrix product with these dimension numbers into a zero accumulator, at the ideal values, read at
    (b, n, m): the same sum. -/
theorem matmul_zero_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    matmul (dims w) prec A C (constant ⟨3, ![B, N, M]⟩ .f32 0x00000000#32) (ix3 b n m)
      = ∑ c : Fin K, A (ix3 b n c) * C (ix3 b m c) := by
  show FloatOps.matmul _ prec A C (constant (F := Ideal) ⟨3, ![B, N, M]⟩ .f32 0x00000000#32) (ix3 b n m) = _
  rw [Ideal.matmul_constant_zero_apply]
  exact contraction_sum w A C b n m

end Cert.Lib.RowsByRows

end
-- ==== Proof.KernelBlock.lean ====
/-
  What one grid point of the kernel computes, as the specification at a block of 512 samples.

  The body loads a block x0 : [512, 128] of dense vectors and a block x1 : [512, 26, 128] of sparse vectors, lays them
  side by side as C : [512, 27, 128] (the dense vector recast as a one-row slab in front), narrows C to bf16 — the
  identity on extended reals —, multiplies C by itself sample by sample over the last axis into a zero accumulator,
  v(p, n, m) = Σ_k C(p, n, k) · C(p, m, k), and stores, as ONE [512, 378] block, the 27 strips
  v[:, r, r:] (r = 0 … 26) laid end to end along the columns. Strip r is 27 − r wide and starts at column `off r`, so
  column `off r + jj` of the block holds v(p, r, r + jj): the block is `tri x0 x1`.
-/
import proofs.«124554_j40389872451968_1_alg».proof.Proof.Gen.KernelIdeal.Frame
import proofs.«124554_j40389872451968_1_alg».proof.Proof.Spec
import proofs.«124554_j40389872451968_1_alg».proof.Proof.LibRowsByRows
import Idealize.ShloMosaic.Lib.Pipeline.Value
import Idealize.ShloMosaic.Lib.ValueIdx
import Idealize.ShloMosaic.PureOps.Ideal.Laws

noncomputable section

open scoped BigOperators

namespace Cert.DotInteract.Block

open Idealize.ShloMosaic Idealize.ShloMosaic.ValueIdx Cert.KernelIdeal Cert.KernelIdeal.Gen Cert.DotInteract

/-! ## One strip of the triangle, and the strips laid end to end -/

/-- Strip `r` of the triangle — the slice of `v` at offsets (0, r, r) of extent [512, 1, 27 − r], its unit axis dropped —
    read at (p, jj) is v(p, r, r + jj). -/
theorem strip_apply {α : Type} (r n : Nat) (hrn : r + n = 27) (v : (⟨3, ![512, 27, 27]⟩ : Shape).Idx → α)
    (hs : (⟨3, ![512, 27, 27]⟩ : Shape).Slices ![0, r, r] ⟨3, ![512, 1, n]⟩)
    (hc : (⟨3, ![512, 1, n]⟩ : Shape).ShapeCasts ⟨2, ![512, n]⟩) (p : Fin 512) (jj : Fin n) :
    shapeCast ⟨2, ![512, n]⟩ (extractStridedSlice ⟨3, ![512, 1, n]⟩ ![0, r, r] v hs) hc (ix2 p jj)
      = v (ix3 p ⟨r, by have := jj.isLt; omega⟩ ⟨r + jj.val, by have := jj.isLt; omega⟩) := by
  refine (shapeCast_apply _ hc (ix2 p jj) (ix3 p (0 : Fin 1) jj) ?_).trans ?_
  · rw [Shape.rowMajor_val_three, Shape.rowMajor_val_two]
    show (p.val * 1 + 0) * n + jj.val = p.val * n + jj.val
    rw [Nat.mul_one, Nat.add_zero]
  · refine extractStridedSlice_apply _ v hs _ _ fun a => ?_
    match a with
    | ⟨0, _⟩ => show p.val = 0 + p.val; omega
    | ⟨1, _⟩ => show r = r + 0; omega
    | ⟨2, _⟩ => show r + jj.val = r + jj.val; rfl

/-- The widths of the 27 strips, in order: 27, 26, …, 1. -/
def widths : List Nat := (List.range 27).map fun r => 27 - r

/-- The strips before strip `k` are `off k` columns wide together. -/
theorem widths_take_sum : ∀ k : Fin 27, (widths.take k.val).sum = off k.val := by decide +kernel

/-- Strip `k` is a well-formed slice and recast, for every `k`. -/
theorem slices_all : ∀ k : Fin 27, (⟨3, ![512, 27, 27]⟩ : Shape).Slices ![0, k.val, k.val] ⟨3, ![512, 1, 27 - k.val]⟩ := by decide
theorem casts_all : ∀ k : Fin 27, (⟨3, ![512, 1, 27 - k.val]⟩ : Shape).ShapeCasts ⟨2, ![512, 27 - k.val]⟩ := by decide

/-- THE STRIPS LAID END TO END, read at a column: if entry `k` of the list is strip `k` of `V` and the list's pieces
    have the widths 27, 26, …, 1, the concatenation at column `off k + jj` is V(p, k, k + jj). -/
theorem arm {α : Type} (xs : List ((s : Shape) × (s.Idx → α)))
    (H : Shape.Concatenates (xs.map (·.1)) ⟨2, ![512, 378]⟩ 1) (V : (⟨3, ![512, 27, 27]⟩ : Shape).Idx → α)
    (k : Fin 27) (hk : k.val < xs.length)
    (hxk : xs[k.val] = ⟨⟨2, ![512, 27 - k.val]⟩, shapeCast ⟨2, ![512, 27 - k.val]⟩
      (extractStridedSlice ⟨3, ![512, 1, 27 - k.val]⟩ ![0, k.val, k.val] V (slices_all k)) (casts_all k)⟩)
    (hw : ((xs.map (·.1)).map fun s : Shape => if h : s.rank = (⟨2, ![512, 378]⟩ : Shape).rank
      then s.size ((1 : Fin (⟨2, ![512, 378]⟩ : Shape).rank).cast h.symm) else 0) = widths)
    (p : Fin 512) (jj : Nat) (hj : k.val + jj < 27) (q : Fin 378) (hq : q.val = off k.val + jj) :
    concatenate ⟨2, ![512, 378]⟩ 1 xs H (ix2 p q) = V (ix3 p k ⟨k.val + jj, hj⟩) := by
  have hpre : (((xs.take k.val).map (·.1)).map fun s : Shape => if h : s.rank = (⟨2, ![512, 378]⟩ : Shape).rank
      then s.size ((1 : Fin (⟨2, ![512, 378]⟩ : Shape).rank).cast h.symm) else 0).sum = off k.val := by
    rw [List.map_take, List.map_take, hw]
    exact widths_take_sum k
  refine (concatenate_apply_piece (1 : Fin 2) xs H (ix2 p q) k.val hk _ _ hxk rfl (off k.val) hpre
    (ix2 p (⟨jj, by omega⟩ : Fin (27 - k.val))) ?_ ?_).trans ?_
  · intro b hb
    match b, hb with
    | ⟨0, _⟩, _ => rfl
    | ⟨1, _⟩, hb => exact absurd rfl hb
  · show off k.val + jj = q.val
    omega
  · exact strip_apply k.val (27 - k.val) (by have := k.isLt; omega) V (slices_all k) (casts_all k) p ⟨jj, by omega⟩

/-! ## The matrix product's operand and its entries -/

/-- The operand C at (p, n, k): the dense block's row for n = 0 (through the recast [512, 128] → [512, 1, 128]), the
    sparse block's row n − 1 otherwise. -/
theorem combined_apply (x0 : (⟨2, ![512, 128]⟩ : Shape).Idx → EReal) (x1 : (⟨3, ![512, 26, 128]⟩ : Shape).Idx → EReal)
    (hc : (⟨2, ![512, 128]⟩ : Shape).ShapeCasts ⟨3, ![512, 1, 128]⟩)
    (hcat : Shape.Concatenates [(⟨3, ![512, 1, 128]⟩ : Shape), ⟨3, ![512, 26, 128]⟩] ⟨3, ![512, 27, 128]⟩ 1)
    (p : Fin 512) (n : Fin 27) (k : Fin 128) :
    concatenate ⟨3, ![512, 27, 128]⟩ 1 [⟨⟨3, ![512, 1, 128]⟩, shapeCast ⟨3, ![512, 1, 128]⟩ x0 hc⟩, ⟨⟨3, ![512, 26, 128]⟩, x1⟩] hcat
        (ix3 p n k) = comb x0 x1 p n k := by
  unfold comb
  by_cases h : n.val = 0
  · rw [dif_pos h]
    refine (concatenate_pair_apply_left (t := ⟨3, ![512, 27, 128]⟩) (s₁ := ⟨3, ![512, 1, 128]⟩) (s₂ := ⟨3, ![512, 26, 128]⟩)
      (1 : Fin 3) _ _ hcat (ix3 p n k) rfl (ix3 p (0 : Fin 1) k) ?_).trans ?_
    · intro b
      match b with
      | ⟨0, _⟩ => rfl
      | ⟨1, _⟩ => show 0 = n.val; omega
      | ⟨2, _⟩ => rfl
    · refine shapeCast_apply x0 hc (ix3 p (0 : Fin 1) k) (ix2 p k) ?_
      rw [Shape.rowMajor_val_two, Shape.rowMajor_val_three]
      show p.val * 128 + k.val = (p.val * 1 + 0) * 128 + k.val
      rw [Nat.mul_one, Nat.add_zero]
  · rw [dif_neg h]
    refine concatenate_pair_apply_right (t := ⟨3, ![512, 27, 128]⟩) (s₁ := ⟨3, ![512, 1, 128]⟩) (s₂ := ⟨3, ![512, 26, 128]⟩)
      (1 : Fin 3) _ _ hcat (ix3 p n k) rfl rfl
      (ix3 p (⟨n.val - 1, by have := n.isLt; omega⟩ : Fin 26) k) ?_ ?_
    · intro b hb
      match b, hb with
      | ⟨0, _⟩, _ => rfl
      | ⟨1, _⟩, hb => exact absurd rfl hb
      | ⟨2, _⟩, _ => rfl
    · show n.val - 1 + 1 = n.val
      omega

/-- The product's entry (p, n, m) is the Gram entry of sample p's feature vectors n and m. -/
theorem gram_block (x0 : Vec Ideal S512x128 .f32) (x1 : Vec Ideal S512x26x128 .f32) (p : Fin 512) (n m : Fin 27) :
    k0_pay2 (F := Ideal) x0 x1 (ix3 p n m) = gram x0 x1 p n m := by
  unfold k0_pay2 gram
  rw [show dot_S512x27x128_S512x27x128_S512x27x27_2_2_1_1_0_0 = Cert.Lib.RowsByRows.dims _ from rfl,
    Cert.Lib.RowsByRows.matmul_zero_apply]
  refine Finset.sum_congr rfl fun k _ => ?_
  rw [truncf_apply, truncf_apply, combined_apply, combined_apply]

/-! ## The stored block -/

/-- The stored payload — the 27 strips of the product laid end to end — at column `off r + jj` is the product's
    entry (p, r, r + jj). The strips have 27 different widths, so that entry r of the list is strip r is checked entry by entry. -/
theorem strips_apply {F : FTy → Type} [FloatOps F] (x0 : Vec F S512x128 .f32) (x1 : Vec F S512x26x128 .f32) (p : Fin 512)
    (r : Fin 27) (jj : Fin 27) (h : r.val + jj.val < 27) (q : Fin 378) (hq : q.val = off r.val + jj.val) :
    k0_pay1 (k0_pay2 x0 x1) (k0_pay3 x0 x1) (k0_pay4 x0 x1) (k0_pay5 x0 x1) (k0_pay6 x0 x1) (k0_pay7 x0 x1) (k0_pay8 x0 x1)
        (k0_pay9 x0 x1) (k0_pay10 x0 x1) (k0_pay11 x0 x1) (k0_pay12 x0 x1) (k0_pay13 x0 x1) (k0_pay14 x0 x1) (k0_pay15 x0 x1)
        (k0_pay16 x0 x1) (k0_pay17 x0 x1) (k0_pay18 x0 x1) (k0_pay19 x0 x1) (k0_pay20 x0 x1) (k0_pay21 x0 x1) (k0_pay22 x0 x1)
        (k0_pay23 x0 x1) (k0_pay24 x0 x1) (k0_pay25 x0 x1) (k0_pay26 x0 x1) (ix2 p q)
      = k0_pay2 x0 x1 (ix3 p r ⟨r.val + jj.val, h⟩) := by
  unfold k0_pay1 k0_pay3 k0_pay4 k0_pay5 k0_pay6 k0_pay7 k0_pay8 k0_pay9 k0_pay10 k0_pay11 k0_pay12 k0_pay13 k0_pay14 k0_pay15
    k0_pay16 k0_pay17 k0_pay18 k0_pay19 k0_pay20 k0_pay21 k0_pay22 k0_pay23 k0_pay24 k0_pay25 k0_pay26
  dsimp only
  generalize k0_pay2 x0 x1 = V
  refine arm _ _ V r ?_ ?_ ?_ p jj.val h q hq
  · exact r.isLt
  · fin_cases r <;> rfl
  · rfl

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT A GRID POINT LEAVES in its output block, from its two input blocks: the upper triangles of the samples' Gram
    matrices, row by row — the specification at 512 samples. -/
theorem block_value (x0 : Vec Ideal S512x128 .f32) (x1 : Vec Ideal S512x26x128 .f32) :
    out0_2 (F := Ideal) x0 x1 = tri x0 x1 := by
  funext j
  obtain ⟨p, q, rfl⟩ : ∃ (p : Fin 512) (q : Fin 378), j = ix2 p q := ⟨j 0, j 1, eq_ix2 j⟩
  rw [tri_apply]
  unfold out0_2
  rw [View.canon_unit_zero hz2]
  simp only [View.ld_unit_zero (S := S512x128) hz2, View.ld_unit_zero (S := S512x26x128) hz3]
  obtain ⟨h1, h2⟩ := col_in_row q
  have hr := rowOf_lt q
  rw [strips_apply x0 x1 p (rowF q) ⟨q.val - off (rowOf q.val), by omega⟩ (by show rowOf q.val + (q.val - off (rowOf q.val)) < 27; omega) q
    (by show q.val = off (rowOf q.val) + (q.val - off (rowOf q.val)); omega)]
  exact gram_block x0 x1 p (rowF q) (colF q)

end Cert.DotInteract.Block

end
-- ==== Proof.KernelArray.lean ====
/-
  From the blocks to the array, and the program's result.

  The grid has 64 points; point t works on samples 512 t … 512 t + 511: its dense block is rows 512 t + p of the dense
  array, its sparse block samples 512 t + p of the sparse array, and it writes back rows 512 t + p of the [32768, 378]
  interaction array, all 378 columns. A sample's Gram matrix depends on that sample's vectors only, so the triangle
  of a block of samples is that block of rows of the triangle of all samples; the 64 row blocks tile the array, which
  therefore ends holding `tri` of the two argument arrays. The program's last line lays the dense array and this
  array side by side; that operation is carried along unopened.
-/
import proofs.«124554_j40389872451968_1_alg».proof.Proof.Gen.KernelIdeal.Frame
import proofs.«124554_j40389872451968_1_alg».proof.Proof.KernelBlock
import proofs.«124554_j40389872451968_1_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.DotInteract.KernelArray

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.DotInteract

/-! ## The triangle of a block of samples -/

/-- If `x0`, `x1` hold samples 512 t … 512 t + 511 of `d`, `s`, the triangle of the block at row `p` is the triangle of the
    arrays at row 512 t + p: every entry of it is a sum over sample 512 t + p's own vectors. -/
theorem tri_block (d : (⟨2, ![32768, 128]⟩ : Shape).Idx → EReal) (s : (⟨3, ![32768, 26, 128]⟩ : Shape).Idx → EReal)
    (x0 : (⟨2, ![512, 128]⟩ : Shape).Idx → EReal) (x1 : (⟨3, ![512, 26, 128]⟩ : Shape).Idx → EReal) (t : Nat) (ht : t < 64)
    (h0 : ∀ (p : Fin 512) (k : Fin 128), x0 (ix2 p k) = d (ix2 (⟨512 * t + p.val, by omega⟩ : Fin 32768) k))
    (h1 : ∀ (p : Fin 512) (n : Fin 26) (k : Fin 128), x1 (ix3 p n k) = s (ix3 (⟨512 * t + p.val, by omega⟩ : Fin 32768) n k))
    (p : Fin 512) (q : Fin 378) :
    tri x0 x1 (ix2 p q) = tri d s (ix2 (⟨512 * t + p.val, by omega⟩ : Fin 32768) q) := by
  rw [tri_apply, tri_apply]
  unfold gram
  refine Finset.sum_congr rfl fun k _ => ?_
  have hc : ∀ n : Fin 27, comb x0 x1 p n k = comb d s (⟨512 * t + p.val, by omega⟩ : Fin 32768) n k := fun n => by
    unfold comb
    by_cases h : n.val = 0
    · rw [dif_pos h, dif_pos h, h0]
    · rw [dif_neg h, dif_neg h, h1]
  rw [hc, hc]

variable (m : (ℓ : Loc nD τ sig) → Buf (Elt Ideal) ℓ) (ρ : Dev nD → PrngReg)

/-! ## The index maps, decided over the 64 grid points -/

theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem point_lt (t : Fin cfg0.N) : t.val < 64 := by
  have h := t.isLt
  have e : cfg0.N = 64 := N_0
  omega

/-! ## What a point writes back -/

/-- Point t's dense block at (p, k) is the dense array at (512 t + p, k). -/
theorem dense_block (c : Dev nD) (t : Fin cfg0.N) (p : Fin 512) (k : Fin 128) :
    iblk m c 0 t (ix2 p k) = V m c main_arg0 (ix2 (⟨512 * t.val + p.val, by have := point_lt t; omega⟩ : Fin 32768) k) := by
  obtain ⟨e00, e01, -, -, -, -, -⟩ := idx_facts t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 512 + 1 * p.val = 512 * t.val + p.val; omega
  | ⟨1, _⟩ => show win0_0.index t (1 : Fin 2) * 128 + 1 * k.val = k.val; omega

/-- Point t's sparse block at (p, n, k) is the sparse array at (512 t + p, n, k). -/
theorem sparse_block (c : Dev nD) (t : Fin cfg0.N) (p : Fin 512) (n : Fin 26) (k : Fin 128) :
    iblk m c 1 t (ix3 p n k) = V m c main_arg1 (ix3 (⟨512 * t.val + p.val, by have := point_lt t; omega⟩ : Fin 32768) n k) := by
  obtain ⟨-, -, e10, e11, e12, -, -⟩ := idx_facts t
  show V m c main_arg1 (((cfg0.win 1).blk t).view.emb (ix3 p n k)) = V m c main_arg1 _
  refine congrArg (V m c main_arg1) (funext fun a => Fin.ext ?_)
  match a with
  | ⟨0, _⟩ => show win0_1.index t (0 : Fin 3) * 512 + 1 * p.val = 512 * t.val + p.val; omega
  | ⟨1, _⟩ => show win0_1.index t (1 : Fin 3) * 26 + 1 * n.val = n.val; omega
  | ⟨2, _⟩ => show win0_1.index t (2 : Fin 3) * 128 + 1 * k.val = k.val; omega

/-- WHAT POINT t WRITES BACK is block t of the triangle of the argument arrays. -/
theorem flushed_eq (c : Dev nD) (t : Fin cfg0.N) :
    (dats m 0 c).flushed 2 t
      = ((cfg0.win 2).blk t).view.read (Elt Ideal) (tri (V m c main_arg0) (V m c main_arg1)) := by
  show (cfg0.win 2).cut (grid0.coords t) ((dats m 0 c).after 2 t) = _
  rw [after0_2, Block.block_value]
  obtain ⟨-, -, -, -, -, e20, e21⟩ := idx_facts t
  funext j
  obtain ⟨p, q, rfl⟩ : ∃ (p : Fin 512) (q : Fin 378), j = ix2 p q := ⟨j 0, j 1, eq_ix2 j⟩
  show tri (iblk m c 0 t) (iblk m c 1 t) (ix2 p q)
    = tri (V m c main_arg0) (V m c main_arg1) (((cfg0.win 2).blk t).view.emb (ix2 p q))
  have he : ((cfg0.win 2).blk t).view.emb (ix2 p q)
      = ix2 (⟨512 * t.val + p.val, by have := point_lt t; omega⟩ : Fin 32768) q := by
    funext a; apply Fin.ext
    match a with
    | ⟨0, _⟩ => show win0_2.index t (0 : Fin 2) * 512 + 1 * p.val = 512 * t.val + p.val; omega
    | ⟨1, _⟩ => show win0_2.index t (1 : Fin 2) * 378 + 1 * q.val = q.val; omega
  rw [he]
  exact tri_block (V m c main_arg0) (V m c main_arg1) (iblk m c 0 t) (iblk m c 1 t) t.val (point_lt t)
    (dense_block m c t) (sparse_block m c t) p q

/-! ## The blocks tile the array -/

/-- An index of the array is in point t's block iff each coordinate is in the block's range on its axis. -/
theorem mem_blk (t : Fin cfg0.N) (i : S32768x378.Idx) :
    i ∈ ((cfg0.win 2).blk t).view.set ↔ ∀ a : Fin 2, win0_2.index t a * S512x378.size a ≤ (i a).val
      ∧ (i a).val < win0_2.index t a * S512x378.size a + S512x378.size a := by
  show i ∈ ((View.whole main_v0).slice (win0_2.rect t)).set ↔ _
  rw [View.set_slice_whole, Rect.mem_set_unit]
  exact Iff.rfl

/-- Row b lies in the block of point b / 512. -/
theorem cover (i : S32768x378.Idx) :
    ∃ t : Fin cfg0.N, (cfg0.win 2).flush t = true ∧ i ∈ ((cfg0.win 2).blk t).view.set := by
  have hi0 : (i 0).val < 32768 := (i 0).isLt
  have hi1 : (i 1).val < 378 := (i 1).isLt
  have e : cfg0.N = 64 := N_0
  let t : Fin cfg0.N := ⟨(i 0).val / 512, by omega⟩
  obtain ⟨-, -, -, -, -, e20, e21⟩ := idx_facts t
  have ht : t.val = (i 0).val / 512 := rfl
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 378 ≤ (i 1).val ∧ (i 1).val < win0_2.index t (1 : Fin 2) * 378 + 378
    omega

/-- THE INTERACTION ARRAY after the region: the triangle of the two argument arrays. -/
theorem final (c : Dev nD) : (dats m 0 c).arrAt 2 cfg0.N
    = tri (m ((c : Thread nD τ).loc main_arg0)) (m ((c : Thread nD τ).loc main_arg1)) :=
  ((dats m 0 c).arrAt_eq_of_cover 2 (tri (V m c main_arg0) (V m c main_arg1))
    (fun t _ => flushed_eq m c t) cover).trans (by rw [V_main_arg0, V_main_arg1])

/-! ## The line after the region, and the run -/

/-- The result buffer is neither scoped nor one of the region's arrays. -/
theorem result_mem : main_v1 ∈ Pipeline.restRefs sig spec0 :=
  Pipeline.mem_restRefs_of main_v1 rfl (by decide)

/-- After the last line the result holds the dense array and the triangle side by side. -/
theorem tail_eq (c : Dev nD) :
    Pipeline.afterTail₀ cfgs (dats m) 0 (V0 m) [hostOps1] c main_v1
      = concatenate S32768x506 1 [⟨S32768x128, m ((c : Thread nD τ).loc main_arg0)⟩,
          ⟨S32768x378, tri (m ((c : Thread nD τ).loc main_arg0)) (m ((c : Thread nD τ).loc main_arg1))⟩]
          Facts₀.concatenates_S32768x128_S32768x378_S32768x506_d1 := by
  unfold Pipeline.afterTail₀
  show StableHlo.after hostOps1 _ (Proc.devRef .tc main_v1) = _
  after_results
  rw [show Pipeline.withArrays spec0 c (V0 m c) (fun w => (dats m 0 c).arrAt w cfg0.N) (Proc.devRef .tc main_arg0)
        = m ((c : Thread nD τ).loc main_arg0) from
      (Pipeline.withArrays_arr spec0 launch0.win.arr_inj c _ _ 0).trans
        (((dats m 0 c).arrAt_in 0 rfl _).trans ((A_eq m c 0).trans (V_main_arg0 m c))),
    show Pipeline.withArrays spec0 c (V0 m c) (fun w => (dats m 0 c).arrAt w cfg0.N) (Proc.devRef .tc main_v0)
        = tri (m ((c : Thread nD τ).loc main_arg0)) (m ((c : Thread nD τ).loc main_arg1)) from
      (Pipeline.withArrays_arr spec0 launch0.win.arr_inj c _ _ 2).trans (final m c)]

/-- THE KERNEL PROGRAM'S RUN at the ideal values: it ends with the result at the dense array and the triangle of the
    arguments side by side, the arguments unchanged. -/
theorem run : θ_run (defs (F := Ideal)) (onTc (τ := τ) (main (F := Ideal))) ⟨m, fun _ => 0, ρ⟩ fun r => ∀ c : Dev nD,
      r.2.mem ((c.tc : Thread nD τ).loc main_v1)
          = concatenate S32768x506 1 [⟨S32768x128, m ((c.tc : Thread nD τ).loc main_arg0)⟩,
              ⟨S32768x378, tri (m ((c.tc : Thread nD τ).loc main_arg0)) (m ((c.tc : Thread nD τ).loc main_arg1))⟩]
              Facts₀.concatenates_S32768x128_S32768x378_S32768x506_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 result_mem).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.DotInteract.KernelArray

end
-- ==== Proof.RefRun.lean ====
/-
  The reference as a straight line of host operations, and what its result buffer holds once the line has run.

  The reference has no kernel: its entry function is twenty tensor operations, each writing one fresh buffer from the
  whole contents of its operands. Listed in order, the program is the sequence of those operations by definition, so
  every weakly fair execution terminates and leaves each buffer at the composition of the operations' functions over
  the two arguments, which nothing writes. The composition for the result is named piece by piece:

    feat d s      the 27 feature vectors per sample: the dense vector as feature 0 in front of the 26 sparse ones;
    table0/1      the two constant tables of 378 words: for each kept entry of the Gram matrix its row and its column;
    wrapped t     a table after the index normalisation "where the condition holds add 27", whose condition is the
                  constant false array;
    startIdx      the [378, 2] array of start indices, row q being (wrapped table0 q, wrapped table1 q);
    gathered d s  the gather of the Gram matrices feat · featᵀ at those start indices;

  and the result is the dense array with `gathered` appended along the columns. The line is read in four stretches —
  the four constants; the Gram matrices; the two normalised tables; the start indices, the gather and the final
  concatenation — each from ANY contents of the buffers before it, saying what it leaves in the buffers a later
  stretch reads; composing the four gives the result. Everything is stated for any float values: nothing here computes.
-/
import proofs.«124554_j40389872451968_1_alg».proof.Proof.Gen.ReferenceIdeal
import Idealize.ShloMosaic.Lib.StableHlo.Run

noncomputable section

namespace Cert.DotInteract.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pieces of the result's term -/

/-- The table of Gram-matrix rows, as an array of 378 words. -/
def table0 : IVec S378 32 := fun i => lit0 (S378.rowMajor i)

/-- The table of Gram-matrix columns, as an array of 378 words. -/
def table1 : IVec S378 32 := fun i => lit1 (S378.rowMajor i)

/-- A table after the normalisation of negative indices: where the condition holds the word plus 27, elsewhere the
    word. The condition is the constant false array. -/
def wrapped (t : IVec S378 32) : IVec S378 32 :=
  select (constantI S378 1 0#1) (addi t (broadcastInDim S378 ![] Facts₀.bcast_S_S378 (constantI S_ 32 27#32))) t

/-- The start indices of the gather: row `q` is the pair (row, column) of the kept entry `q`. -/
def startIdx : IVec S378x2 32 :=
  concatenate S378x2 1 [⟨S378x1, broadcastInDim S378x1 ![0] Facts₀.bcast_S378_S378x1_0 (wrapped table0)⟩,
    ⟨S378x1, broadcastInDim S378x1 ![0] Facts₀.bcast_S378_S378x1_0 (wrapped table1)⟩] Facts₀.concatenates_S378x1_S378x1_S378x2_d1

/-- The feature vectors: per sample the dense vector, as one more row, in front of the 26 sparse vectors. -/
def feat (d : FVec F S32768x128 .f32) (s : FVec F S32768x26x128 .f32) : FVec F S32768x27x128 .f32 :=
  concatenate S32768x27x128 1 [⟨S32768x1x128, broadcastInDim S32768x1x128 ![0, 2] Facts₀.bcast_S32768x128_S32768x1x128_0_2 d⟩,
    ⟨S32768x26x128, s⟩] Facts₀.concatenates_S32768x1x128_S32768x26x128_S32768x27x128_d1

/-- The kept entries of every sample's Gram matrix: the gather of `feat · featᵀ` at the start indices. -/
def gathered (d : FVec F S32768x128 .f32) (s : FVec F S32768x26x128 .f32) : FVec F S32768x378 .f32 :=
  Host.gather gather_S32768x27x27_S378x2_S32768x378_0_12_n_n_12_1_3276811
    (Host.dotGeneral dot_S32768x27x128_S32768x27x128_S32768x27x27_2_2_1_1_0_0 none (feat d s) (feat d s)) startIdx

/-! ## The operations, in the program's order -/

/-- `%c`: the constant table of Gram-matrix rows. -/
abbrev opC : HloOp τ sig (Elt F) :=
  nullary main_c (fun i => lit0 (S378.rowMajor i))
/-- `%c_0`: the constant false array. -/
abbrev opC0 : HloOp τ sig (Elt F) :=
  nullary main_c_0 (constantI S378 1 0#1)
/-- `%c_1`: the constant table of Gram-matrix columns. -/
abbrev opC1 : HloOp τ sig (Elt F) :=
  nullary main_c_1 (fun i => lit1 (S378.rowMajor i))
/-- `%c_2`: the constant false array. -/
abbrev opC2 : HloOp τ sig (Elt F) :=
  nullary main_c_2 (constantI S378 1 0#1)
/-- `%0`: the dense array given a unit feature axis. -/
abbrev opV0 : HloOp τ sig (Elt F) :=
  unary main_arg0 main_v0 (broadcastInDim S32768x1x128 ![0, 2] Facts₀.bcast_S32768x128_S32768x1x128_0_2 : (⟨S32768x128, .f32⟩ : BufTy).Contents (Elt F) → (⟨S32768x1x128, .f32⟩ : BufTy).Contents (Elt F))
/-- `%1`: the dense vector in front of the sparse vectors. -/
abbrev opV1 : HloOp τ sig (Elt F) :=
  binary main_v0 main_arg1 main_v1 ((fun a b => concatenate S32768x27x128 1 [⟨S32768x1x128, a⟩, ⟨S32768x26x128, b⟩] Facts₀.concatenates_S32768x1x128_S32768x26x128_S32768x27x128_d1) : (⟨S32768x1x128, .f32⟩ : BufTy).Contents (Elt F) → (⟨S32768x26x128, .f32⟩ : BufTy).Contents (Elt F) → (⟨S32768x27x128, .f32⟩ : BufTy).Contents (Elt F))
/-- `%2`: the Gram matrices, the product of the feature vectors with themselves over the last axis. -/
abbrev opV2 : HloOp τ sig (Elt F) :=
  binary main_v1 main_v1 main_v2 ((fun l r => Host.dotGeneral dot_S32768x27x128_S32768x27x128_S32768x27x27_2_2_1_1_0_0 none l r) : (⟨S32768x27x128, .f32⟩ : BufTy).Contents (Elt F) → (⟨S32768x27x128, .f32⟩ : BufTy).Contents (Elt F) → (⟨S32768x27x27, .f32⟩ : BufTy).Contents (Elt F))
/-- `%c_3`: the constant 27. -/
abbrev opC3 : HloOp τ sig (Elt F) :=
  nullary main_c_3 (constantI S_ 32 27#32)
/-- `%3`: 27 at every entry. -/
abbrev opV3 : HloOp τ sig (Elt F) :=
  unary main_c_3 main_v3 (broadcastInDim S378 ![] Facts₀.bcast_S_S378 : (⟨S_, .i32⟩ : BufTy).Contents (Elt F) → (⟨S378, .i32⟩ : BufTy).Contents (Elt F))
/-- `%4`: the row table plus 27. -/
abbrev opV4 : HloOp τ sig (Elt F) :=
  binary main_c main_v3 main_v4 (addi : (⟨S378, .i32⟩ : BufTy).Contents (Elt F) → (⟨S378, .i32⟩ : BufTy).Contents (Elt F) → (⟨S378, .i32⟩ : BufTy).Contents (Elt F))
/-- `%5`: where the false array holds, the row table plus 27, elsewhere the row table. -/
abbrev opV5 : HloOp τ sig (Elt F) :=
  ternary main_c_0 main_v4 main_c main_v5 (select : (⟨S378, .i1⟩ : BufTy).Contents (Elt F) → (⟨S378, .i32⟩ : BufTy).Contents (Elt F) → (⟨S378, .i32⟩ : BufTy).Contents (Elt F) → (⟨S378, .i32⟩ : BufTy).Contents (Elt F))
/-- `%c_4`: the constant 27. -/
abbrev opC4 : HloOp τ sig (Elt F) :=
  nullary main_c_4 (constantI S_ 32 27#32)
/-- `%6`: 27 at every entry. -/
abbrev opV6 : HloOp τ sig (Elt F) :=
  unary main_c_4 main_v6 (broadcastInDim S378 ![] Facts₀.bcast_S_S378 : (⟨S_, .i32⟩ : BufTy).Contents (Elt F) → (⟨S378, .i32⟩ : BufTy).Contents (Elt F))
/-- `%7`: the column table plus 27. -/
abbrev opV7 : HloOp τ sig (Elt F) :=
  binary main_c_1 main_v6 main_v7 (addi : (⟨S378, .i32⟩ : BufTy).Contents (Elt F) → (⟨S378, .i32⟩ : BufTy).Contents (Elt F) → (⟨S378, .i32⟩ : BufTy).Contents (Elt F))
/-- `%8`: where the false array holds, the column table plus 27, elsewhere the column table. -/
abbrev opV8 : HloOp τ sig (Elt F) :=
  ternary main_c_2 main_v7 main_c_1 main_v8 (select : (⟨S378, .i1⟩ : BufTy).Contents (Elt F) → (⟨S378, .i32⟩ : BufTy).Contents (Elt F) → (⟨S378, .i32⟩ : BufTy).Contents (Elt F) → (⟨S378, .i32⟩ : BufTy).Contents (Elt F))
/-- `%9`: the normalised rows as a [378, 1] column. -/
abbrev opV9 : HloOp τ sig (Elt F) :=
  unary main_v5 main_v9 (broadcastInDim S378x1 ![0] Facts₀.bcast_S378_S378x1_0 : (⟨S378, .i32⟩ : BufTy).Contents (Elt F) → (⟨S378x1, .i32⟩ : BufTy).Contents (Elt F))
/-- `%10`: the normalised columns as a [378, 1] column. -/
abbrev opV10 : HloOp τ sig (Elt F) :=
  unary main_v8 main_v10 (broadcastInDim S378x1 ![0] Facts₀.bcast_S378_S378x1_0 : (⟨S378, .i32⟩ : BufTy).Contents (Elt F) → (⟨S378x1, .i32⟩ : BufTy).Contents (Elt F))
/-- `%11`: the two columns side by side, the start indices. -/
abbrev opV11 : HloOp τ sig (Elt F) :=
  binary main_v9 main_v10 main_v11 ((fun a b => concatenate S378x2 1 [⟨S378x1, a⟩, ⟨S378x1, b⟩] Facts₀.concatenates_S378x1_S378x1_S378x2_d1) : (⟨S378x1, .i32⟩ : BufTy).Contents (Elt F) → (⟨S378x1, .i32⟩ : BufTy).Contents (Elt F) → (⟨S378x2, .i32⟩ : BufTy).Contents (Elt F))
/-- `%12`: the gather of the Gram matrices at the start indices. -/
abbrev opV12 : HloOp τ sig (Elt F) :=
  binary main_v2 main_v11 main_v12 ((fun x i => Host.gather gather_S32768x27x27_S378x2_S32768x378_0_12_n_n_12_1_3276811 x i) : (⟨S32768x27x27, .f32⟩ : BufTy).Contents (Elt F) → (⟨S378x2, .i32⟩ : BufTy).Contents (Elt F) → (⟨S32768x378, .f32⟩ : BufTy).Contents (Elt F))
/-- `%13`: the dense array with the gathered entries appended along the columns. -/
abbrev opV13 : HloOp τ sig (Elt F) :=
  binary main_arg0 main_v12 main_v13 ((fun a b => concatenate S32768x506 1 [⟨S32768x128, a⟩, ⟨S32768x378, b⟩] Facts₀.concatenates_S32768x128_S32768x378_S32768x506_d1) : (⟨S32768x128, .f32⟩ : BufTy).Contents (Elt F) → (⟨S32768x378, .f32⟩ : BufTy).Contents (Elt F) → (⟨S32768x506, .f32⟩ : BufTy).Contents (Elt F))

/-- The entry function's 20 operations, in order. -/
abbrev ops : List (HloOp τ sig (Elt F)) :=
  [opC, opC0, opC1, opC2, opV0, opV1, opV2, opC3, opV3, opV4, opV5, opC4, opV6, opV7, opV8, opV9, opV10, opV11, opV12, opV13]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub .., binary_bufs_sub ..⟩

/-! ## The four stretches, each from any contents `W` of the buffers -/

/-- The four constants. -/
abbrev constOps : List (HloOp τ sig (Elt F)) := [opC, opC0, opC1, opC2]
/-- The feature vectors and their Gram matrices. -/
abbrev gramOps : List (HloOp τ sig (Elt F)) := [opV0, opV1, opV2]
/-- The two tables, normalised. -/
abbrev wrapOps : List (HloOp τ sig (Elt F)) := [opC3, opV3, opV4, opV5, opC4, opV6, opV7, opV8]
/-- The start indices, the gather and the result. -/
abbrev gatherOps : List (HloOp τ sig (Elt F)) := [opV9, opV10, opV11, opV12, opV13]

variable (W : Valuation τ sig (Elt F))

/-- The constants leave the two tables and the two false arrays, and keep the arguments. -/
theorem after_constOps :
    after constOps W (Proc.devRef .tc main_c) = table0
    ∧ after constOps W (Proc.devRef .tc main_c_0) = constantI S378 1 0#1
    ∧ after constOps W (Proc.devRef .tc main_c_1) = table1
    ∧ after constOps W (Proc.devRef .tc main_c_2) = constantI S378 1 0#1
    ∧ after constOps W (Proc.devRef .tc main_arg0) = W (Proc.devRef .tc main_arg0)
    ∧ after constOps W (Proc.devRef .tc main_arg1) = W (Proc.devRef .tc main_arg1) := by
  refine ⟨?_, ?_, ?_, ?_, ?_, ?_⟩ <;> after_results <;> rfl

/-- The second stretch leaves the Gram matrices of the arguments' feature vectors, and keeps the arguments and the
    four constants. -/
theorem after_gramOps :
    after gramOps W (Proc.devRef .tc main_v2)
        = Host.dotGeneral dot_S32768x27x128_S32768x27x128_S32768x27x27_2_2_1_1_0_0 none
            (feat (W (Proc.devRef .tc main_arg0)) (W (Proc.devRef .tc main_arg1))) (feat (W (Proc.devRef .tc main_arg0)) (W (Proc.devRef .tc main_arg1)))
    ∧ after gramOps W (Proc.devRef .tc main_arg0) = W (Proc.devRef .tc main_arg0)
    ∧ after gramOps W (Proc.devRef .tc main_arg1) = W (Proc.devRef .tc main_arg1)
    ∧ after gramOps W (Proc.devRef .tc main_c) = W (Proc.devRef .tc main_c)
    ∧ after gramOps W (Proc.devRef .tc main_c_0) = W (Proc.devRef .tc main_c_0)
    ∧ after gramOps W (Proc.devRef .tc main_c_1) = W (Proc.devRef .tc main_c_1)
    ∧ after gramOps W (Proc.devRef .tc main_c_2) = W (Proc.devRef .tc main_c_2) := by
  refine ⟨?_, ?_, ?_, ?_, ?_, ?_, ?_⟩ <;> after_results <;> rfl

/-- The third stretch leaves each table selected against itself plus 27 on its condition array, and keeps the
    arguments and the Gram matrices. -/
theorem after_wrapOps :
    after wrapOps W (Proc.devRef .tc main_v5)
        = select (W (Proc.devRef .tc main_c_0)) (addi (W (Proc.devRef .tc main_c)) (broadcastInDim S378 ![] Facts₀.bcast_S_S378 (constantI S_ 32 27#32))) (W (Proc.devRef .tc main_c))
    ∧ after wrapOps W (Proc.devRef .tc main_v8)
        = select (W (Proc.devRef .tc main_c_2)) (addi (W (Proc.devRef .tc main_c_1)) (broadcastInDim S378 ![] Facts₀.bcast_S_S378 (constantI S_ 32 27#32))) (W (Proc.devRef .tc main_c_1))
    ∧ after wrapOps W (Proc.devRef .tc main_arg0) = W (Proc.devRef .tc main_arg0)
    ∧ after wrapOps W (Proc.devRef .tc main_arg1) = W (Proc.devRef .tc main_arg1)
    ∧ after wrapOps W (Proc.devRef .tc main_v2) = W (Proc.devRef .tc main_v2) := by
  refine ⟨?_, ?_, ?_, ?_, ?_⟩ <;> after_results <;> rfl

/-- The last stretch leaves the dense argument with, appended along the columns, the gather of the Gram matrices at
    the two normalised tables laid side by side; it keeps the arguments. -/
theorem after_gatherOps :
    after gatherOps W (Proc.devRef .tc main_v13)
        = concatenate S32768x506 1 [⟨S32768x128, W (Proc.devRef .tc main_arg0)⟩,
            ⟨S32768x378, Host.gather gather_S32768x27x27_S378x2_S32768x378_0_12_n_n_12_1_3276811 (W (Proc.devRef .tc main_v2))
              (concatenate S378x2 1 [⟨S378x1, broadcastInDim S378x1 ![0] Facts₀.bcast_S378_S378x1_0 (W (Proc.devRef .tc main_v5))⟩,
                ⟨S378x1, broadcastInDim S378x1 ![0] Facts₀.bcast_S378_S378x1_0 (W (Proc.devRef .tc main_v8))⟩] Facts₀.concatenates_S378x1_S378x1_S378x2_d1)⟩]
            Facts₀.concatenates_S32768x128_S32768x378_S32768x506_d1
    ∧ after gatherOps W (Proc.devRef .tc main_arg0) = W (Proc.devRef .tc main_arg0)
    ∧ after gatherOps W (Proc.devRef .tc main_arg1) = W (Proc.devRef .tc main_arg1) := by
  refine ⟨?_, ?_, ?_⟩ <;> after_results <;> rfl

/-! ## The whole line -/

/-- After the twenty operations from contents `W`: the result buffer holds the dense argument with `gathered` of the two
    arguments appended, and the arguments are as they were. -/
theorem after_ops :
    after ops W (Proc.devRef .tc main_v13)
        = concatenate S32768x506 1 [⟨S32768x128, W (Proc.devRef .tc main_arg0)⟩,
            ⟨S32768x378, gathered (W (Proc.devRef .tc main_arg0)) (W (Proc.devRef .tc main_arg1))⟩]
            Facts₀.concatenates_S32768x128_S32768x378_S32768x506_d1
    ∧ after ops W (Proc.devRef .tc main_arg0) = W (Proc.devRef .tc main_arg0)
    ∧ after ops W (Proc.devRef .tc main_arg1) = W (Proc.devRef .tc main_arg1) := by
  obtain ⟨c, c0, c1, c2, ca0, ca1⟩ := after_constOps W
  obtain ⟨g2, ga0, ga1, gc, gc0, gc1, gc2⟩ := after_gramOps (after constOps W)
  obtain ⟨w5, w8, wa0, wa1, w2⟩ := after_wrapOps (after gramOps (after constOps W))
  obtain ⟨r13, ra0, ra1⟩ := after_gatherOps (after wrapOps (after gramOps (after constOps W)))
  refine ⟨?_, ?_, ?_⟩
  · show after gatherOps (after wrapOps (after gramOps (after constOps W))) (Proc.devRef .tc main_v13) = _
    rw [r13, wa0, ga0, ca0, w2, g2, ca1, w5, w8, gc0, gc, gc2, gc1, c0, c, c2, c1]
    rfl
  · show after gatherOps (after wrapOps (after gramOps (after constOps W))) (Proc.devRef .tc main_arg0) = _
    rw [ra0, wa0, ga0, ca0]
  · show after gatherOps (after wrapOps (after gramOps (after constOps W))) (Proc.devRef .tc main_arg1) = _
    rw [ra1, wa1, ga1, ca1]

/-- On every device, for any float values, from any memory with zero counters: every weakly fair execution of the
    reference terminates with its result buffer holding the dense argument with `gathered` of the two arguments appended
    along the columns, and the two arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = concatenate S32768x506 1 [⟨S32768x128, m ((c.tc : Thread nD τ).loc main_arg0)⟩,
              ⟨S32768x378, gathered (m ((c.tc : Thread nD τ).loc main_arg0)) (m ((c.tc : Thread nD τ).loc main_arg1))⟩]
              Facts₀.concatenates_S32768x128_S32768x378_S32768x506_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v13).trans (after_ops (launchContents m c)).1,
       (h c main_arg0).trans (after_ops (launchContents m c)).2.1,
       (h c main_arg1).trans (after_ops (launchContents m c)).2.2⟩)
    (run_seq scopedRefs_eq scopedSems_eq defs main (fun _ => ops) main_eq (fun _ => ops_sub) m ρ)

end Cert.DotInteract.RefRun

end
-- ==== Proof.RefTables.lean ====
/-
  The two constant tables of the reference and the triangle's layout.

  The reference reads the upper triangle of each 27 × 27 Gram matrix through two tables of 378 words: for entry q of
  the triangle, the matrix row and the matrix column to read. The specification names the same two numbers `rowOf q`
  and `colOf q` by arithmetic (the row whose span of the row-by-row layout holds q, and q's place in it past the
  diagonal). The tables are literal data, so that they agree is 378 comparisons each; so is the one fact about words
  that reading them needs: a number below 27 written as a 32-bit word and read back signed is the number, and
  clamping it into [0, 26] leaves it alone.
-/
import proofs.«124554_j40389872451968_1_alg».proof.Proof.Gen.ReferenceIdeal
import proofs.«124554_j40389872451968_1_alg».proof.Proof.Spec

namespace Cert.DotInteract.Ref

open Cert.ReferenceIdeal

/-- The first table lists, entry by entry of the triangle, the Gram-matrix row. -/
theorem lit0_eq : ∀ q : Fin 378, lit0 q = BitVec.ofNat 32 (rowOf q.val) := by decide +kernel

/-- The second table lists the Gram-matrix column. -/
theorem lit1_eq : ∀ q : Fin 378, lit1 q = BitVec.ofNat 32 (colOf q.val) := by decide +kernel

/-- A number below 27, as a 32-bit word read signed and clamped into [0, 26], is the number. -/
theorem clamp_word : ∀ n : Fin 27, min (BitVec.ofNat 32 n.val).toInt.toNat (27 - 1) = n.val := by decide

end Cert.DotInteract.Ref
-- ==== Proof.RefValue.lean ====
/-
  The reference's gathered array is the specification, and the reference's run restated over it.

  Per sample b the reference forms the 27 × 27 Gram matrix G_b = C_b · C_bᵀ of the sample's 27 feature vectors and
  then reads 378 of its entries with ONE gather: entry q of the result is G_b at the start index (row q, column q)
  taken from two constant tables. A gather reads its start indices as signed integers and clamps each so that the
  slice fits, here into [0, 26]; to the clamped start it adds the result's own coordinate on the axis it keeps whole
  (the sample axis, which the start indices do not name) and nothing on the two axes it collapses. Three facts then
  make the gathered array the specification's `tri`:

    1. at every q the tables hold the words of `rowOf q` and `colOf q` (`lit0_eq`, `lit1_eq`: decided case by case),
       and the index normalisation in front of them selects on a constant false condition, so it changes nothing;
    2. a number below 27 written as a 32-bit word and read signed is itself, and so is its clamp into [0, 26]
       (`clamp_word`);
    3. the Gram matrix at (b, n, m) is Σ_k C(b, n, k) · C(b, m, k), and C(b, n, ·) is the dense vector for n = 0 and
       sparse vector n − 1 otherwise.

  Nothing needs the entries to be finite: both sides are the same sum of the same extended reals.
-/
import proofs.«124554_j40389872451968_1_alg».proof.Proof.RefRun
import proofs.«124554_j40389872451968_1_alg».proof.Proof.RefTables
import proofs.«124554_j40389872451968_1_alg».proof.Proof.Spec
import proofs.«124554_j40389872451968_1_alg».proof.Proof.LibRowsByRows
import Idealize.ShloMosaic.Lib.Pipeline.Value
import Idealize.ShloMosaic.Lib.ValueIdx
import Idealize.ShloMosaic.Lib.ValueLayout

noncomputable section

open scoped BigOperators

namespace Cert.DotInteract.Ref

open Cert.ReferenceIdeal Cert.ReferenceIdeal.Gen Idealize.ShloMosaic Idealize.ShloMosaic.ValueIdx Idealize.SL.Sem
open Cert.DotInteract.RefRun

/-! ## The start indices: row q is (rowOf q, colOf q) -/

/-- The normalisation of negative indices selects on the constant false condition: it keeps every word. -/
theorem wrapped_apply (t : IVec S378 32) (i : S378.Idx) : wrapped t i = t i := by
  unfold wrapped
  rw [select_apply]
  exact select_zero _ _

/-- The row-major position of a rank-1 index is its coordinate. -/
theorem rowMajor_ix1 (q : Fin 378) : S378.rowMajor (ix1 q) = q := Fin.ext (Shape.rowMajor_val_one _)

/-- A normalised table laid out as a [378, 1] column, read at (q, 0), is the table at q. -/
theorem column_apply (t : IVec S378 32) (q : Fin 378) :
    broadcastInDim S378x1 ![0] Facts₀.bcast_S378_S378x1_0 (wrapped t) (ix2 q (0 : Fin 1)) = t (ix1 q) := by
  rw [broadcastInDim_apply _ _ _ _ (ix1 q) (fun a => by match a with | ⟨0, _⟩ => rfl), wrapped_apply]

/-- Column 0 of the start indices is the first of the two columns placed side by side: the row numbers. -/
theorem startIdx_row (q : Fin 378) : startIdx (ix2 q (0 : Fin 2)) = BitVec.ofNat 32 (rowOf q.val) := by
  unfold startIdx
  rw [concatenate_pair_apply_left (t := S378x2) (s₁ := S378x1) (s₂ := S378x1) (1 : Fin 2) _ _ _ (ix2 q (0 : Fin 2)) rfl
    (ix2 q (0 : Fin 1)) (fun b => by match b with | ⟨0, _⟩ => rfl | ⟨1, _⟩ => rfl), column_apply]
  unfold table0
  rw [rowMajor_ix1, lit0_eq]

/-- Column 1 is the second: the column numbers. -/
theorem startIdx_col (q : Fin 378) : startIdx (ix2 q (1 : Fin 2)) = BitVec.ofNat 32 (colOf q.val) := by
  unfold startIdx
  rw [concatenate_pair_apply_right (t := S378x2) (s₁ := S378x1) (s₂ := S378x1) (1 : Fin 2) _ _ _ (ix2 q (1 : Fin 2)) rfl rfl
    (ix2 q (0 : Fin 1)) (fun b hb => by match b with | ⟨0, _⟩ => rfl | ⟨1, _⟩ => exact absurd rfl hb) rfl, column_apply]
  unfold table1
  rw [rowMajor_ix1, lit1_eq]

/-! ## The gather's operand index

The dimension numbers: the result's axis 0 is the one offset axis and reads the operand's axis 0 whole (slice size
32768); the operand's axes 1 and 2 are collapsed (slice size 1) and are the two the start index names, in that order;
the start indices' axis 1 holds the index vector, so their axis 0 is the result's one batch axis, its axis 1. At
result index (b, q) the start-index component for operand axis 1 is therefore read at (q, 0) and the one for axis 2
at (q, 1). -/

/-- The gather's dimension numbers. -/
abbrev gdims : GatherDims S32768x27x27 S378x2 S32768x378 := gather_S32768x27x27_S378x2_S32768x378_0_12_n_n_12_1_3276811

/-- The component for operand axis 1, the first the start index names, is read at (q, 0). -/
theorem siIdx_row (b : Fin 32768) (q : Fin 378) (h : List.idxOf (1 : Fin 3) gdims.startIndexMap < gdims.startIndexMap.length) :
    gdims.siIdx (ix2 b q) ⟨List.idxOf (1 : Fin 3) gdims.startIndexMap, h⟩ = ix2 q (0 : Fin 2) := by
  funext a; refine Fin.ext ?_
  match a with
  | ⟨0, _⟩ => rfl
  | ⟨1, _⟩ => rfl

/-- The component for operand axis 2, the second, is read at (q, 1). -/
theorem siIdx_col (b : Fin 32768) (q : Fin 378) (h : List.idxOf (2 : Fin 3) gdims.startIndexMap < gdims.startIndexMap.length) :
    gdims.siIdx (ix2 b q) ⟨List.idxOf (2 : Fin 3) gdims.startIndexMap, h⟩ = ix2 q (1 : Fin 2) := by
  funext a; refine Fin.ext ?_
  match a with
  | ⟨0, _⟩ => rfl
  | ⟨1, _⟩ => rfl

/-- The start index does not name the sample axis: the slice starts at 0 there. -/
theorem start_0 (b : Fin 32768) (q : Fin 378) : gdims.start (ix2 b q) startIdx 0 = 0 := by
  unfold GatherDims.start
  rw [dif_neg (show ¬ (0 : Fin 3) ∈ gdims.startIndexMap by decide)]

/-- On the Gram matrix's row axis the slice starts at the clamped row number, which is the row number. -/
theorem start_1 (b : Fin 32768) (q : Fin 378) : gdims.start (ix2 b q) startIdx 1 = rowOf q.val := by
  unfold GatherDims.start
  rw [dif_pos (show (1 : Fin 3) ∈ gdims.startIndexMap by decide), siIdx_row, startIdx_row]
  exact clamp_word (rowF q)

/-- On its column axis, at the column number. -/
theorem start_2 (b : Fin 32768) (q : Fin 378) : gdims.start (ix2 b q) startIdx 2 = colOf q.val := by
  unfold GatherDims.start
  rw [dif_pos (show (2 : Fin 3) ∈ gdims.startIndexMap by decide), siIdx_col, startIdx_col]
  exact clamp_word (colF q)

/-- The sample axis is the one kept axis: its offset coordinate is the result's sample coordinate. -/
theorem off_0 (b : Fin 32768) (q : Fin 378) : gdims.offCoord (ix2 b q) 0 = b.val := by
  unfold GatherDims.offCoord
  rw [dif_pos (show (0 : Fin 3) ∈ gdims.sKept by decide)]
  rfl

/-- Result entry (b, q) reads the Gram matrices at (b, rowOf q, colOf q): per axis the clamped start, no batching
    coordinate (the gather has no batching axes), and the offset coordinate, which is zero on a collapsed axis. -/
theorem operandIdx_eq (b : Fin 32768) (q : Fin 378) :
    gdims.operandIdx (ix2 b q) startIdx = ix3 b (rowF q) (colF q) := by
  funext a; refine Fin.ext ?_
  match a with
  | ⟨0, _⟩ =>
    show gdims.start (ix2 b q) startIdx 0 + gdims.batchCoord (ix2 b q) 0 + gdims.offCoord (ix2 b q) 0 = b.val
    rw [start_0, GatherDims.batchCoord_eq_zero _ _ _ (by decide), off_0]; omega
  | ⟨1, _⟩ =>
    show gdims.start (ix2 b q) startIdx 1 + gdims.batchCoord (ix2 b q) 1 + gdims.offCoord (ix2 b q) 1 = rowOf q.val
    rw [start_1, GatherDims.batchCoord_eq_zero _ _ _ (by decide), GatherDims.offCoord_eq_zero _ _ _ (by decide)]; rfl
  | ⟨2, _⟩ =>
    show gdims.start (ix2 b q) startIdx 2 + gdims.batchCoord (ix2 b q) 2 + gdims.offCoord (ix2 b q) 2 = colOf q.val
    rw [start_2, GatherDims.batchCoord_eq_zero _ _ _ (by decide), GatherDims.offCoord_eq_zero _ _ _ (by decide)]; rfl

/-! ## The Gram matrix and the feature vectors at an index -/

/-- The product that keeps the sample axis and contracts the last axis of both operands, at (b, n, m): the sum over
    the 128 positions of the products of the two rows' entries. -/
theorem dot_apply (A : FVec Ideal S32768x27x128 .f32) (b : Fin 32768) (n m : Fin 27) :
    Host.dotGeneral dot_S32768x27x128_S32768x27x128_S32768x27x27_2_2_1_1_0_0 none A A (ix3 b n m)
      = ∑ k : Fin 128, A (ix3 b n k) * A (ix3 b m k) := by
  rw [show dot_S32768x27x128_S32768x27x128_S32768x27x27_2_2_1_1_0_0
      = Cert.Lib.RowsByRows.dims Facts₀.dot_S32768x27x128_S32768x27x128_S32768x27x27_2_2_1_1_0_0_wf from rfl]
  exact Cert.Lib.RowsByRows.dotGeneral_apply _ none A A b n m

/-- Feature vector `n` of sample `b`: row 0 of the stack is the dense vector, given its unit axis; row `n` past it is
    row `n − 1` of the sparse vectors. -/
theorem feat_apply (d : FVec Ideal S32768x128 .f32) (s : FVec Ideal S32768x26x128 .f32)
    (b : Fin 32768) (n : Fin 27) (k : Fin 128) : feat d s (ix3 b n k) = comb d s b n k := by
  unfold feat comb
  by_cases h : n.val = 0
  · rw [dif_pos h, concatenate_pair_apply_left (t := S32768x27x128) (s₁ := S32768x1x128) (s₂ := S32768x26x128) (1 : Fin 3) _ _ _
      (ix3 b n k) rfl (ix3 b (0 : Fin 1) k)
      (fun a => by match a with | ⟨0, _⟩ => rfl | ⟨1, _⟩ => exact h.symm | ⟨2, _⟩ => rfl)]
    exact broadcastInDim_apply _ _ _ _ (ix2 b k) (fun a => by match a with | ⟨0, _⟩ => rfl | ⟨1, _⟩ => rfl)
  · rw [dif_neg h]
    exact concatenate_pair_apply_right (t := S32768x27x128) (s₁ := S32768x1x128) (s₂ := S32768x26x128) (1 : Fin 3) _ _ _
      (ix3 b n k) rfl rfl (ix3 b ⟨n.val - 1, by have := n.isLt; omega⟩ k)
      (fun a ha => by match a with | ⟨0, _⟩ => rfl | ⟨1, _⟩ => exact absurd rfl ha | ⟨2, _⟩ => rfl)
      (by show n.val - 1 + 1 = n.val; omega)

/-! ## The gathered array is the specification -/

/-- Entry (b, q) of the gathered array is the Gram matrix of sample `b` at (rowOf q, colOf q), and that matrix is the
    specification's: the same sum over the 128 positions of the same products. -/
theorem gathered_eq_tri (d : FVec Ideal S32768x128 .f32) (s : FVec Ideal S32768x26x128 .f32) :
    gathered d s = Cert.DotInteract.tri d s := by
  funext j
  obtain ⟨b, q, rfl⟩ : ∃ (b : Fin 32768) (q : Fin 378), j = ix2 b q := ⟨j 0, j 1, eq_ix2 j⟩
  rw [tri_apply]
  unfold gathered Host.gather
  rw [show gather_S32768x27x27_S378x2_S32768x378_0_12_n_n_12_1_3276811 = gdims from rfl, operandIdx_eq, dot_apply]
  unfold gram
  exact Finset.sum_congr rfl fun k _ => by rw [feat_apply, feat_apply]

/-! ## The run, restated over the specification -/

/-- On every device, from any memory with zero counters: every weakly fair execution of the reference at the ideal
    values terminates with its result buffer holding the dense argument with the specification's triangle of the two
    arguments appended along the columns, and the two arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = concatenate S32768x506 1 [⟨S32768x128, m ((c.tc : Thread nD τ).loc main_arg0)⟩,
              ⟨S32768x378, Cert.DotInteract.tri (m ((c.tc : Thread nD τ).loc main_arg0)) (m ((c.tc : Thread nD τ).loc main_arg1))⟩]
              Facts₀.concatenates_S32768x128_S32768x378_S32768x506_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => by
      obtain ⟨h1, h2, h3⟩ := h c
      refine ⟨?_, h2, h3⟩
      rw [h1, gathered_eq_tri])
    (RefRun.run (F := Ideal) m ρ)

end Cert.DotInteract.Ref

end
-- ==== Proof.lean ====
/-
  The dot-interaction layer: a Pallas kernel against its jnp reference, equal over the extended reals.

  Both programs take the dense features d : [32768, 128] and the sparse features s : [32768, 26, 128], form per sample the
  27 feature vectors (the dense one, then the 26 sparse ones), take their Gram matrix g(n, m) = Σ_k c(n, k) · c(m, k),
  keep its upper triangle with the diagonal, row by row (378 entries), and return the dense features with that triangle
  beside them, [32768, 506].

  The kernel does it 512 samples at a time: it lays each block's vectors side by side, multiplies the [512, 27, 128] slab by
  itself sample by sample over the last axis (in bf16 with an f32 accumulator, which at the ideal values is the exact
  sum), cuts the 27 strips g(r, r …) out of the product and stores them end to end. The reference multiplies the whole
  [32768, 27, 128] array by itself and picks the 378 entries with one gather at the constant index pairs
  (row, column) of the triangle. Read at an index, both are the same finite sum of products of the same entries, in the
  same order; no algebraic law is needed, so the precondition (finite inputs) is never opened.

  The modules: Spec (the triangle's layout and the value `tri` as one function of the arguments, for any number of
  samples), LibRowsByRows (the batched rows-by-rows product read at an index), KernelBlock (what one grid point
  stores), KernelArray (the 64 blocks tile the array; the program's last line; the kernel program's run),
  RefRun, RefTables and RefValue (the reference's run; its two constant tables against the layout; its gather and its
  product read at an index). Here the five claims are put
  together: the two kernels' frames are the generated ones, the reference's frame is its run with the result dropped, the
  idealization rewrote nothing, and the two runs end at the same array.
-/
import proofs.«124554_j40389872451968_1_alg».proof.Defs
import proofs.«124554_j40389872451968_1_alg».proof.Proof.Gen.Kernel
import proofs.«124554_j40389872451968_1_alg».proof.Proof.Gen.Kernel.Skeleton
import proofs.«124554_j40389872451968_1_alg».proof.Proof.Gen.Kernel.Launch
import proofs.«124554_j40389872451968_1_alg».proof.Proof.Gen.Kernel.Points
import proofs.«124554_j40389872451968_1_alg».proof.Proof.Gen.Kernel.Frame
import proofs.«124554_j40389872451968_1_alg».proof.Proof.Gen.KernelIdeal
import proofs.«124554_j40389872451968_1_alg».proof.Proof.Gen.KernelIdeal.Skeleton
import proofs.«124554_j40389872451968_1_alg».proof.Proof.Gen.KernelIdeal.Launch
import proofs.«124554_j40389872451968_1_alg».proof.Proof.Gen.KernelIdeal.Points
import proofs.«124554_j40389872451968_1_alg».proof.Proof.Gen.KernelIdeal.Frame
import proofs.«124554_j40389872451968_1_alg».proof.Proof.Gen.ReferenceIdeal
import proofs.«124554_j40389872451968_1_alg».proof.Proof.Gen.Pre_finite_inputs
import proofs.«124554_j40389872451968_1_alg».proof.Proof.KernelArray
import proofs.«124554_j40389872451968_1_alg».proof.Proof.RefValue
import Idealize.ShloMosaic.Adequacy
import Idealize.ShloMosaic.Init

noncomputable section

namespace Cert.Proof

open Idealize.ShloMosaic Idealize.SL.Sem

/-- The kernel as printed runs, and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.DotInteract.Ref.run m ρ)

/-- From memories that agree on the arguments both programs end with the dense features and the triangle of the
    samples' Gram matrices side by side: the same array. -/
theorem algebraic : Cert.algebraic_KernelIdeal_ReferenceIdeal := by
  intro m ρ m' ρ' _ hagree
  refine ⟨_, Cert.DotInteract.KernelArray.run m ρ, ?_⟩
  refine (θ_run Cert.ReferenceIdeal.defs _ _).mono (fun _ h c => ⟨(h c).1.trans ?_, (h c).2⟩)
    (Cert.DotInteract.Ref.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
